-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x1 : Shape := ⟨2, ![512, 1]⟩
abbrev S512x512 : Shape := ⟨2, ![512, 512]⟩
abbrev S1x4096 : Shape := ⟨2, ![1, 4096]⟩

abbrev nBuf : Space → Nat
  | .hbm => 62
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x512, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  reducesTo_S4096x4096_S4096_d1 : S4096x4096.ReducesTo [1] S4096
  bcast_S_S4096x1 : S_.BroadcastsInDim S4096x1 (![] : Fin 0 → Fin S4096x1.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  reducesTo_S4096x4096_S_d0_1 : S4096x4096.ReducesTo [0, 1] S_
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S1024x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S_, .f32⟩
  | .hbm, ⟨68, _⟩ => ⟨S1x4096, .f32⟩
  | .hbm, ⟨69, _⟩ => ⟨S1x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_cst_16 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_cst_18 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S4096x1024_S1024x4096_1_0 : S4096x1024.Transposes [1, 0] S1024x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096x1 : S_.BroadcastsInDim S4096x1 (![] : Fin 0 → Fin S4096x1.rank)
  reducesTo_S4096x4096_S4096_d0 : S4096x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  reducesTo_S4096x4096_S_d0_1 : S4096x4096.ReducesTo [0, 1] S_
  bcast_S1x4096_S4096x4096_0_1 : S1x4096.BroadcastsInDim S4096x4096 (![0, 1] : Fin 2 → Fin S4096x4096.rank)
  transposes_S4096x4096_S4096x4096_1_0 : S4096x4096.Transposes [1, 0] S4096x4096
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelBody.lean ====
/-
  The kernel body of each of the two kernel calls, run once at a generic grid point.

  Each call is a pipeline over an 8×8 grid with four windows: rows block i of the input (512×1024), rows block j of the
  same input (512×1024), rows block i of the column of squared norms (512×1), and block (i, j) of the output (512×512).
  At a point the body loads the three input blocks whole, forms exp (A Bᵀ − s) and stores it whole into the output's
  staging buffer. This module states what the pipeline library asks about that body: the proof data (what each staging
  buffer holds after the body, as a function of the arrays the region was entered with) and the body obligation.
-/
import proofs.«154306_j26061861552238_1_alg».proof.Proof.Gen.Kernel.Launch
import proofs.«154306_j26061861552238_1_alg».proof.Proof.Gen.Kernel.Skeleton
import proofs.«154306_j26061861552238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

-- the TensorCore's buffer contents when a region is entered: the parameter both regions' halves are stated at
variable (V : (c : Dev nD) → (b : Ref sig .tc) → Buf (Elt F) ((c : Thread nD τ).loc b))

/-! # Region 0: the pipeline of the first kernel call, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×1024 staging buffer, the whole 512×1 one and the whole 512×512 one: the rectangles the body loads and stores. -/
abbrev r0_0 : Rect S512x1024 := Rect.unit (s := S512x1024) ![0, 0] S512x1024.size Gen.inb_S512x1024_S512x1024_0_0
abbrev r0_2 : Rect S512x1 := Rect.unit (s := S512x1) ![0, 0] S512x1.size Gen.inb_S512x1_S512x1_0_0
abbrev r0_3 : Rect S512x512 := Rect.unit (s := S512x512) ![0, 0] S512x512.size Gen.inb_S512x512_S512x512_0_0

/-- What the body leaves in the output window's staging buffer, from the three input blocks: its one whole-buffer store. -/
def out0_3 (x0 x1 : Vec F S512x1024 .f32) (x2 : Vec F S512x1 .f32) : Vec F S512x512 .f32 :=
  View.canon [⟨r0_3, k0_pay1 (View.ld x0 r0_0) (View.ld x1 r0_0) (View.ld x2 r0_2)⟩]

/-- The pipeline's proof data on core `c`: the arrays as the region finds them; after the body at point `t` each input's
    buffer holds its block and the output's holds `out0_3` of the three blocks. The two windows that read the same input
    array hold it at the two halves of the full share; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Input window 0's current staging buffer holds its block at every point, whether or not the block was moved in there
    at that point (when it was not, the block index is the one of the point before, and the body left the block in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, whether or not the block was moved in there
    at that point (when it was not, the block index is the one of the point before, and the body left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, whether or not the block was moved in there
    at that point (when it was not, the block index is the one of the point before, and the body left the block in place). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- The one store is of the whole 512×512 buffer, so it covers it. -/
theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

set_option maxHeartbeats 1000000 in
/-- The body on whole staging buffers: with the three input buffers at contents `x0`, `x1`, `x2` and the output buffer at
    anything, it runs to the continuation with the inputs unchanged and the output buffer at `out0_3 x0 x1 x2`. The load
    of the output buffer's old contents is never used. -/
theorem sound_kernel0 (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .f32) (harg4 : arg4.IsWhole) (arg5 : Memref sig .tc .vmem S512x512 .f32) (harg5 : arg5.IsWhole)
    (x0 x1 : Vec F S512x1024 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__rbf_kernel i arg2 harg2 arg3 harg3 arg4 harg4 arg5 harg5) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is handed at point `t`: the invariant, what the core owes, and the four current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so `sound_kernel0` applies; the invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point: handed the three input blocks in the current staging
    buffers, the body leaves them in place and leaves `out0_3` of them in the output's buffer. -/
theorem body_obligation0 (c : Dev nD) : BodyObligation (dat0 (F := F) V c) (defs₀ (F := F)) Variants.none () Set.univ := fun t => by
  rw [bigSep_W0, bigSep_W0]
  exact sound_body0 V c t

/-! # Region 1: the pipeline of the second kernel call, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512×1024 staging buffer, the whole 512×1 one and the whole 512×512 one: the rectangles the body loads and stores. -/
abbrev r1_0 : Rect S512x1024 := Rect.unit (s := S512x1024) ![0, 0] S512x1024.size Gen.inb_S512x1024_S512x1024_0_0
abbrev r1_2 : Rect S512x1 := Rect.unit (s := S512x1) ![0, 0] S512x1.size Gen.inb_S512x1_S512x1_0_0
abbrev r1_3 : Rect S512x512 := Rect.unit (s := S512x512) ![0, 0] S512x512.size Gen.inb_S512x512_S512x512_0_0

/-- What the body leaves in the output window's staging buffer, from the three input blocks: its one whole-buffer store. -/
def out1_3 (x0 x1 : Vec F S512x1024 .f32) (x2 : Vec F S512x1 .f32) : Vec F S512x512 .f32 :=
  View.canon [⟨r1_3, k1_pay1 (View.ld x0 r1_0) (View.ld x1 r1_0) (View.ld x2 r1_2)⟩]

/-- The pipeline's proof data on core `c`: the arrays as the region finds them; after the body at point `t` each input's
    buffer holds its block and the output's holds `out1_3` of the three blocks. The two windows that read the same input
    array hold it at the two halves of the full share; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Input window 0's current staging buffer holds its block at every point, whether or not the block was moved in there
    at that point (when it was not, the block index is the one of the point before, and the body left the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether or not the block was moved in there
    at that point (when it was not, the block index is the one of the point before, and the body left the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether or not the block was moved in there
    at that point (when it was not, the block index is the one of the point before, and the body left the block in place). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The one store is of the whole 512×512 buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

set_option maxHeartbeats 1000000 in
/-- The body on whole staging buffers: with the three input buffers at contents `x0`, `x1`, `x2` and the output buffer at
    anything, it runs to the continuation with the inputs unchanged and the output buffer at `out1_3 x0 x1 x2`. The load
    of the output buffer's old contents is never used. -/
theorem sound_kernel1 (c : Dev nD) (E : Set ℕ) (i : grid1.Coords)
    (arg2 : Memref sig .tc .vmem S512x1024 .f32) (harg2 : arg2.IsWhole) (arg3 : Memref sig .tc .vmem S512x1024 .f32) (harg3 : arg3.IsWhole)
    (arg4 : Memref sig .tc .vmem S512x1 .f32) (harg4 : arg4.IsWhole) (arg5 : Memref sig .tc .vmem S512x512 .f32) (harg5 : arg5.IsWhole)
    (x0 x1 : Vec F S512x1024 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__rbf_kernel i arg2 harg2 arg3 harg3 arg4 harg4 arg5 harg5) K := by
  simp only [cc1__rbf_kernel_eq_skeleton]; unfold cc1__rbf_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is handed at point `t`: the invariant, what the core owes, and the four current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so `sound_kernel1` applies; the invariant and what the
    core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point: handed the three input blocks in the current staging
    buffers, the body leaves them in place and leaves `out1_3` of them in the output's buffer. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.KernelArrays.lean ====
/-
  The arrays of a kernel call among a core's unscoped buffers, when two of the call's windows read the same array.

  The call's four windows sit on three buffers: the input (twice), the column of squared norms, and the output. At the
  call's entry the core holds every unscoped buffer whole; the input's full share is split into its two halves, one per
  window. At the exit the two halves are joined again, and the output's buffer holds what the write-backs left.
-/
import proofs.«154306_j26061861552238_1_alg».proof.Proof.KernelBody

set_option maxRecDepth 16384

noncomputable section

namespace Cert.Kernel.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A separating conjunction over three distinct indices, spelt out. -/
theorem bigSep_three {M : Type} [URA M] {I : Type} [DecidableEq I] (a b d : I) (hab : a ∉ ({b, d} : Finset I)) (hbd : b ∉ ({d} : Finset I))
    (Φ : I → sProp M) : bigSep ({a, b, d} : Finset I) Φ = iprop(Φ a ∗ Φ b ∗ Φ d) := by
  rw [BI.bigSep_insert hab, BI.bigSep_insert hbd, BI.bigSep_singleton]; rfl

theorem image0 : (Finset.univ.image (Pipeline.arrRef spec0) : Finset (Ref sig .tc)) = {main_arg0, main_v2, main_v6} := by decide

/-- At the call's entry: the input's full share splits into its two halves, one for each of the two windows that read it;
    the column of squared norms and the output are held whole; every other unscoped buffer stays aside. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  unfold Pipeline.arrBufs Dat.arrays
  rw [show Finset.image (Pipeline.arrRef (cfgs 0).spec) Finset.univ = ({main_arg0, main_v2, main_v6} : Finset (Ref sig .tc)) from image0, bigSep_W0]
  rw [bigSep_three main_arg0 main_v2 main_v6 (by decide) (by decide)]
  rw [(arr_whole0 0).set_eq_univ, (arr_whole0 2).set_eq_univ, (arr_whole0 3).set_eq_univ]
  rw [show (dat0 V c).share 0 = fullShare.left from rfl, show (dat0 V c).share 1 = fullShare.right from rfl,
    show (dat0 V c).share 2 = fullShare from rfl, show (dat0 V c).share 3 = fullShare from rfl]
  exact (sep_mono (pointsTo_share (PosShare.mem_left_op_right fullShare)).1 .rfl).trans sep_assoc

/-- At the call's exit: the two halves of the input's share join, the output's buffer holds what the write-backs left, and
    every other unscoped buffer is as the call found it. -/
theorem exit0 (c : Dev nD) (V' : (b : Ref sig .tc) → Buf (Elt F) ((c : Thread nD τ).loc b))
    (hout : V' main_v6 = (dat0 V c).arrAt 3 cfg0.N) (hrest : ∀ b, b ≠ main_v6 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  have e0 : (dat0 V c).arrAt 0 cfg0.N = V' main_arg0 :=
    ((dat0 V c).arrAt_in 0 rfl _).trans ((A_eq0 V c 0).trans (hrest main_arg0 (by decide)).symm)
  have e1 : (dat0 V c).arrAt 1 cfg0.N = V' main_arg0 :=
    ((dat0 V c).arrAt_in 1 rfl _).trans ((A_eq0 V c 1).trans (hrest main_arg0 (by decide)).symm)
  have e2 : (dat0 V c).arrAt 2 cfg0.N = V' main_v2 :=
    ((dat0 V c).arrAt_in 2 rfl _).trans ((A_eq0 V c 2).trans (hrest main_v2 (by decide)).symm)
  rw [Pipeline.unscopedBufs_split₀ cfgs 0 winFacts₀0.arr_unscoped c V']
  refine sep_mono ?_ (Entails.of_eq ?_)
  · unfold Pipeline.arrBufs Dat.arrays
    rw [show Finset.image (Pipeline.arrRef (cfgs 0).spec) Finset.univ = ({main_arg0, main_v2, main_v6} : Finset (Ref sig .tc)) from image0, bigSep_W0]
    rw [bigSep_three main_arg0 main_v2 main_v6 (by decide) (by decide)]
    rw [(arr_whole0 0).set_eq_univ, (arr_whole0 2).set_eq_univ, (arr_whole0 3).set_eq_univ]
    rw [show (dat0 V c).share 0 = fullShare.left from rfl, show (dat0 V c).share 1 = fullShare.right from rfl,
      show (dat0 V c).share 2 = fullShare from rfl, show (dat0 V c).share 3 = fullShare from rfl]
    dsimp only
    rw [e0, e1, e2, ← hout]
    exact sep_assoc'.trans (sep_mono (pointsTo_share (PosShare.mem_left_op_right fullShare)).2 .rfl)
  · unfold Pipeline.unscopedRest
    refine bigSep_congr fun b hb => ?_
    rw [hrest b fun e => (Finset.mem_sdiff.mp hb).2 (by rw [e]; exact Finset.mem_image.mpr ⟨3, Finset.mem_univ _, rfl⟩)]

theorem image1 : (Finset.univ.image (Pipeline.arrRef spec1) : Finset (Ref sig .tc)) = {main_arg1, main_v5, main_v7} := by decide

/-- At the call's entry: the input's full share splits into its two halves, one for each of the two windows that read it;
    the column of squared norms and the output are held whole; every other unscoped buffer stays aside. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [show Finset.image (Pipeline.arrRef (cfgs 1).spec) Finset.univ = ({main_arg1, main_v5, main_v7} : Finset (Ref sig .tc)) from image1, bigSep_W1]
  rw [bigSep_three main_arg1 main_v5 main_v7 (by decide) (by decide)]
  rw [(arr_whole1 0).set_eq_univ, (arr_whole1 2).set_eq_univ, (arr_whole1 3).set_eq_univ]
  rw [show (dat1 V c).share 0 = fullShare.left from rfl, show (dat1 V c).share 1 = fullShare.right from rfl,
    show (dat1 V c).share 2 = fullShare from rfl, show (dat1 V c).share 3 = fullShare from rfl]
  exact (sep_mono (pointsTo_share (PosShare.mem_left_op_right fullShare)).1 .rfl).trans sep_assoc

/-- At the call's exit: the two halves of the input's share join, the output's buffer holds what the write-backs left, and
    every other unscoped buffer is as the call found it. -/
theorem exit1 (c : Dev nD) (V' : (b : Ref sig .tc) → Buf (Elt F) ((c : Thread nD τ).loc b))
    (hout : V' main_v7 = (dat1 V c).arrAt 3 cfg1.N) (hrest : ∀ b, b ≠ main_v7 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have e0 : (dat1 V c).arrAt 0 cfg1.N = V' main_arg1 :=
    ((dat1 V c).arrAt_in 0 rfl _).trans ((A_eq1 V c 0).trans (hrest main_arg1 (by decide)).symm)
  have e1 : (dat1 V c).arrAt 1 cfg1.N = V' main_arg1 :=
    ((dat1 V c).arrAt_in 1 rfl _).trans ((A_eq1 V c 1).trans (hrest main_arg1 (by decide)).symm)
  have e2 : (dat1 V c).arrAt 2 cfg1.N = V' main_v5 :=
    ((dat1 V c).arrAt_in 2 rfl _).trans ((A_eq1 V c 2).trans (hrest main_v5 (by decide)).symm)
  rw [Pipeline.unscopedBufs_split₀ cfgs 1 winFacts₀1.arr_unscoped c V']
  refine sep_mono ?_ (Entails.of_eq ?_)
  · unfold Pipeline.arrBufs Dat.arrays
    rw [show Finset.image (Pipeline.arrRef (cfgs 1).spec) Finset.univ = ({main_arg1, main_v5, main_v7} : Finset (Ref sig .tc)) from image1, bigSep_W1]
    rw [bigSep_three main_arg1 main_v5 main_v7 (by decide) (by decide)]
    rw [(arr_whole1 0).set_eq_univ, (arr_whole1 2).set_eq_univ, (arr_whole1 3).set_eq_univ]
    rw [show (dat1 V c).share 0 = fullShare.left from rfl, show (dat1 V c).share 1 = fullShare.right from rfl,
      show (dat1 V c).share 2 = fullShare from rfl, show (dat1 V c).share 3 = fullShare from rfl]
    dsimp only
    rw [e0, e1, e2, ← hout]
    exact sep_assoc'.trans (sep_mono (pointsTo_share (PosShare.mem_left_op_right fullShare)).2 .rfl)
  · unfold Pipeline.unscopedRest
    refine bigSep_congr fun b hb => ?_
    rw [hrest b fun e => (Finset.mem_sdiff.mp hb).2 (by rw [e]; exact Finset.mem_image.mpr ⟨3, Finset.mem_univ _, rfl⟩)]

end Cert.Kernel.Arrays

end
-- ==== Proof.KernelRun.lean ====
/-
  The whole program run: @main is four segments — the host operations that form the two columns of squared norms, the
  first kernel call, the second kernel call, and the host operations that centre the two matrices and sum their product.

  The buffer contents at each boundary are a fold from the launch memory: the host operations' results after a host
  stretch, and after a kernel call the call's output array at what its write-backs leave, everything else unchanged.
  Every weakly fair execution terminates, nothing faults, and the final memory holds every unscoped buffer at the last
  boundary's contents — in particular both arguments as launched, and the result as the host tail computes it.
-/
import proofs.«154306_j26061861552238_1_alg».proof.Proof.KernelArrays
import proofs.«154306_j26061861552238_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body Cert.Kernel.Arrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first call: its output array at what the write-backs leave, every other buffer as entered. -/
def W2 (c : Dev nD) : Valuation τ sig (Elt F) :=
  Function.update (W1 m c) (Proc.devRef .tc main_v6) ((dat0 (U1 m) c).arrAt 3 cfg0.N)
abbrev U2 : (c : Dev nD) → (b : Ref sig .tc) → Buf (Elt F) ((c : Thread nD τ).loc b) := fun c b => W2 m c b
theorem W2_out (c : Dev nD) : U2 m c main_v6 = (dat0 (U1 m) c).arrAt 3 cfg0.N := by
  unfold U2 W2; exact Function.update_self ..
theorem W2_rest (c : Dev nD) : ∀ b : Ref sig .tc, b ≠ main_v6 → U2 m c b = U1 m c b := fun b hb => by
  unfold U2 W2; exact Function.update_of_ne (StableHlo.devRef_ne_of_ne hb) ..
/-- After the second call, likewise. -/
def W3 (c : Dev nD) : Valuation τ sig (Elt F) :=
  Function.update (W2 m c) (Proc.devRef .tc main_v7) ((dat1 (U2 m) c).arrAt 3 cfg1.N)
abbrev U3 : (c : Dev nD) → (b : Ref sig .tc) → Buf (Elt F) ((c : Thread nD τ).loc b) := fun c b => W3 m c b
theorem W3_out (c : Dev nD) : U3 m c main_v7 = (dat1 (U2 m) c).arrAt 3 cfg1.N := by
  unfold U3 W3; exact Function.update_self ..
theorem W3_rest (c : Dev nD) : ∀ b : Ref sig .tc, b ≠ main_v7 → U3 m c b = U2 m c b := fun b hb => by
  unfold U3 W3; exact Function.update_of_ne (StableHlo.devRef_ne_of_ne hb) ..
/-- After the last host stretch: the contents the final memory is read against. -/
abbrev W4 : Dev nD → Valuation τ sig (Elt F) := fun c => StableHlo.after hostOps2 (W3 m c)

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The kernel calls as segments -/

-- a library lemma stated over the pinned configuration unifies with the printed one only when unification may unfold
-- plain definitions in a metavariable's type
set_option backward.isDefEq.respectTransparency.types false in
/-- The first kernel call over the thread state: entered with every unscoped buffer at `W1`, left with them at
    `W2`. Its arrays are split out of the unscoped buffers at entry and put back at exit; the generator register
    passes through the invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (U1 m) c (U2 m c) (W2_out m c) (W2_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second kernel call over the thread state: entered with every unscoped buffer at `W2`, left with them at
    `W3`. Its arrays are split out of the unscoped buffers at entry and put back at exit; the generator register
    passes through the invariant; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (U2 m) c (U3 m c) (W3_out m c) (W3_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_arg (c : Dev nD) (b : Ref sig .tc) (h1 : b ∉ hostOps2_W) (h2 : b ≠ main_v7) (h3 : b ≠ main_v6) (h4 : b ∉ hostOps0_W) :
    W4 m c (Proc.devRef .tc b) = m ((c : Thread nD τ).loc b) :=
  (StableHlo.after_of_writes_sub hostOps2 _ hostOps2_writes h1).trans <|
    (W3_rest m c b h2).trans <| (W2_rest m c b h3).trans <| (StableHlo.after_of_writes_sub hostOps0 _ hostOps0_writes h4).trans rfl

end Cert.Kernel.Run

end
-- ==== Proof.KernelIdealBody.lean ====
/-
  The kernel body of each of the two kernel calls, run once at a generic grid point.

  Each call is a pipeline over an 8×8 grid with four windows: rows block i of the input (512×1024), rows block j of the
  same input (512×1024), rows block i of the column of squared norms (512×1), and block (i, j) of the output (512×512).
  At a point the body loads the three input blocks whole, forms exp (A Bᵀ − s) and stores it whole into the output's
  staging buffer. This module states what the pipeline library asks about that body: the proof data (what each staging
  buffer holds after the body, as a function of the arrays the region was entered with) and the body obligation.
-/
import proofs.«154306_j26061861552238_1_alg».proof.Proof.Gen.KernelIdeal.Launch
import proofs.«154306_j26061861552238_1_alg».proof.Proof.Gen.KernelIdeal.Skeleton
import proofs.«154306_j26061861552238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

-- the TensorCore's buffer contents when a region is entered: the parameter both regions' halves are stated at
variable (V : (c : Dev nD) → (b : Ref sig .tc) → Buf (Elt F) ((c : Thread nD τ).loc b))

/-! # Region 0: the pipeline of the first kernel call, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×1024 staging buffer, the whole 512×1 one and the whole 512×512 one: the rectangles the body loads and stores. -/
abbrev r0_0 : Rect S512x1024 := Rect.unit (s := S512x1024) ![0, 0] S512x1024.size Gen.inb_S512x1024_S512x1024_0_0
abbrev r0_2 : Rect S512x1 := Rect.unit (s := S512x1) ![0, 0] S512x1.size Gen.inb_S512x1_S512x1_0_0
abbrev r0_3 : Rect S512x512 := Rect.unit (s := S512x512) ![0, 0] S512x512.size Gen.inb_S512x512_S512x512_0_0

/-- What the body leaves in the output window's staging buffer, from the three input blocks: its one whole-buffer store. -/
def out0_3 (x0 x1 : Vec F S512x1024 .f32) (x2 : Vec F S512x1 .f32) : Vec F S512x512 .f32 :=
  View.canon [⟨r0_3, k0_pay1 (View.ld x0 r0_0) (View.ld x1 r0_0) (View.ld x2 r0_2)⟩]

/-- The pipeline's proof data on core `c`: the arrays as the region finds them; after the body at point `t` each input's
    buffer holds its block and the output's holds `out0_3` of the three blocks. The two windows that read the same input
    array hold it at the two halves of the full share; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Input window 0's current staging buffer holds its block at every point, whether or not the block was moved in there
    at that point (when it was not, the block index is the one of the point before, and the body left the block in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, whether or not the block was moved in there
    at that point (when it was not, the block index is the one of the point before, and the body left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, whether or not the block was moved in there
    at that point (when it was not, the block index is the one of the point before, and the body left the block in place). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- The one store is of the whole 512×512 buffer, so it covers it. -/
theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

set_option maxHeartbeats 1000000 in
/-- The body on whole staging buffers: with the three input buffers at contents `x0`, `x1`, `x2` and the output buffer at
    anything, it runs to the continuation with the inputs unchanged and the output buffer at `out0_3 x0 x1 x2`. The load
    of the output buffer's old contents is never used. -/
theorem sound_kernel0 (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .f32) (harg4 : arg4.IsWhole) (arg5 : Memref sig .tc .vmem S512x512 .f32) (harg5 : arg5.IsWhole)
    (x0 x1 : Vec F S512x1024 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__rbf_kernel i arg2 harg2 arg3 harg3 arg4 harg4 arg5 harg5) K := by
  simp only [cc0__rbf_kernel_eq_skeleton]; unfold cc0__rbf_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is handed at point `t`: the invariant, what the core owes, and the four current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so `sound_kernel0` applies; the invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point: handed the three input blocks in the current staging
    buffers, the body leaves them in place and leaves `out0_3` of them in the output's buffer. -/
theorem body_obligation0 (c : Dev nD) : BodyObligation (dat0 (F := F) V c) (defs₀ (F := F)) Variants.none () Set.univ := fun t => by
  rw [bigSep_W0, bigSep_W0]
  exact sound_body0 V c t

/-! # Region 1: the pipeline of the second kernel call, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512×1024 staging buffer, the whole 512×1 one and the whole 512×512 one: the rectangles the body loads and stores. -/
abbrev r1_0 : Rect S512x1024 := Rect.unit (s := S512x1024) ![0, 0] S512x1024.size Gen.inb_S512x1024_S512x1024_0_0
abbrev r1_2 : Rect S512x1 := Rect.unit (s := S512x1) ![0, 0] S512x1.size Gen.inb_S512x1_S512x1_0_0
abbrev r1_3 : Rect S512x512 := Rect.unit (s := S512x512) ![0, 0] S512x512.size Gen.inb_S512x512_S512x512_0_0

/-- What the body leaves in the output window's staging buffer, from the three input blocks: its one whole-buffer store. -/
def out1_3 (x0 x1 : Vec F S512x1024 .f32) (x2 : Vec F S512x1 .f32) : Vec F S512x512 .f32 :=
  View.canon [⟨r1_3, k1_pay1 (View.ld x0 r1_0) (View.ld x1 r1_0) (View.ld x2 r1_2)⟩]

/-- The pipeline's proof data on core `c`: the arrays as the region finds them; after the body at point `t` each input's
    buffer holds its block and the output's holds `out1_3` of the three blocks. The two windows that read the same input
    array hold it at the two halves of the full share; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Input window 0's current staging buffer holds its block at every point, whether or not the block was moved in there
    at that point (when it was not, the block index is the one of the point before, and the body left the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether or not the block was moved in there
    at that point (when it was not, the block index is the one of the point before, and the body left the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether or not the block was moved in there
    at that point (when it was not, the block index is the one of the point before, and the body left the block in place). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The one store is of the whole 512×512 buffer, so it covers it. -/
theorem cover1_3 (p0 : Vec F S512x512 .f32) (y : S512x512.Idx) :
    ∃ pc ∈ ([⟨r1_3, p0⟩] : List (View.Piece (Elt F) S512x512 .f32)), y ∈ pc.1.set :=
  View.cover_of_tiled [⟨r1_3, p0⟩] S512x512.size (by rfl) y

set_option maxHeartbeats 1000000 in
/-- The body on whole staging buffers: with the three input buffers at contents `x0`, `x1`, `x2` and the output buffer at
    anything, it runs to the continuation with the inputs unchanged and the output buffer at `out1_3 x0 x1 x2`. The load
    of the output buffer's old contents is never used. -/
theorem sound_kernel1 (c : Dev nD) (E : Set ℕ) (i : grid1.Coords)
    (arg2 : Memref sig .tc .vmem S512x1024 .f32) (harg2 : arg2.IsWhole) (arg3 : Memref sig .tc .vmem S512x1024 .f32) (harg3 : arg3.IsWhole)
    (arg4 : Memref sig .tc .vmem S512x1 .f32) (harg4 : arg4.IsWhole) (arg5 : Memref sig .tc .vmem S512x512 .f32) (harg5 : arg5.IsWhole)
    (x0 x1 : Vec F S512x1024 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__rbf_kernel i arg2 harg2 arg3 harg3 arg4 harg4 arg5 harg5) K := by
  simp only [cc1__rbf_kernel_eq_skeleton]; unfold cc1__rbf_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is handed at point `t`: the invariant, what the core owes, and the four current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so `sound_kernel1` applies; the invariant and what the
    core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point: handed the three input blocks in the current staging
    buffers, the body leaves them in place and leaves `out1_3` of them in the output's buffer. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KernelIdealArrays.lean ====
/-
  The arrays of a kernel call among a core's unscoped buffers, when two of the call's windows read the same array.

  The call's four windows sit on three buffers: the input (twice), the column of squared norms, and the output. At the
  call's entry the core holds every unscoped buffer whole; the input's full share is split into its two halves, one per
  window. At the exit the two halves are joined again, and the output's buffer holds what the write-backs left.
-/
import proofs.«154306_j26061861552238_1_alg».proof.Proof.KernelIdealBody

set_option maxRecDepth 16384

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A separating conjunction over three distinct indices, spelt out. -/
theorem bigSep_three {M : Type} [URA M] {I : Type} [DecidableEq I] (a b d : I) (hab : a ∉ ({b, d} : Finset I)) (hbd : b ∉ ({d} : Finset I))
    (Φ : I → sProp M) : bigSep ({a, b, d} : Finset I) Φ = iprop(Φ a ∗ Φ b ∗ Φ d) := by
  rw [BI.bigSep_insert hab, BI.bigSep_insert hbd, BI.bigSep_singleton]; rfl

theorem image0 : (Finset.univ.image (Pipeline.arrRef spec0) : Finset (Ref sig .tc)) = {main_arg0, main_v2, main_v6} := by decide

/-- At the call's entry: the input's full share splits into its two halves, one for each of the two windows that read it;
    the column of squared norms and the output are held whole; every other unscoped buffer stays aside. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  unfold Pipeline.arrBufs Dat.arrays
  rw [show Finset.image (Pipeline.arrRef (cfgs 0).spec) Finset.univ = ({main_arg0, main_v2, main_v6} : Finset (Ref sig .tc)) from image0, bigSep_W0]
  rw [bigSep_three main_arg0 main_v2 main_v6 (by decide) (by decide)]
  rw [(arr_whole0 0).set_eq_univ, (arr_whole0 2).set_eq_univ, (arr_whole0 3).set_eq_univ]
  rw [show (dat0 V c).share 0 = fullShare.left from rfl, show (dat0 V c).share 1 = fullShare.right from rfl,
    show (dat0 V c).share 2 = fullShare from rfl, show (dat0 V c).share 3 = fullShare from rfl]
  exact (sep_mono (pointsTo_share (PosShare.mem_left_op_right fullShare)).1 .rfl).trans sep_assoc

/-- At the call's exit: the two halves of the input's share join, the output's buffer holds what the write-backs left, and
    every other unscoped buffer is as the call found it. -/
theorem exit0 (c : Dev nD) (V' : (b : Ref sig .tc) → Buf (Elt F) ((c : Thread nD τ).loc b))
    (hout : V' main_v6 = (dat0 V c).arrAt 3 cfg0.N) (hrest : ∀ b, b ≠ main_v6 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  have e0 : (dat0 V c).arrAt 0 cfg0.N = V' main_arg0 :=
    ((dat0 V c).arrAt_in 0 rfl _).trans ((A_eq0 V c 0).trans (hrest main_arg0 (by decide)).symm)
  have e1 : (dat0 V c).arrAt 1 cfg0.N = V' main_arg0 :=
    ((dat0 V c).arrAt_in 1 rfl _).trans ((A_eq0 V c 1).trans (hrest main_arg0 (by decide)).symm)
  have e2 : (dat0 V c).arrAt 2 cfg0.N = V' main_v2 :=
    ((dat0 V c).arrAt_in 2 rfl _).trans ((A_eq0 V c 2).trans (hrest main_v2 (by decide)).symm)
  rw [Pipeline.unscopedBufs_split₀ cfgs 0 winFacts₀0.arr_unscoped c V']
  refine sep_mono ?_ (Entails.of_eq ?_)
  · unfold Pipeline.arrBufs Dat.arrays
    rw [show Finset.image (Pipeline.arrRef (cfgs 0).spec) Finset.univ = ({main_arg0, main_v2, main_v6} : Finset (Ref sig .tc)) from image0, bigSep_W0]
    rw [bigSep_three main_arg0 main_v2 main_v6 (by decide) (by decide)]
    rw [(arr_whole0 0).set_eq_univ, (arr_whole0 2).set_eq_univ, (arr_whole0 3).set_eq_univ]
    rw [show (dat0 V c).share 0 = fullShare.left from rfl, show (dat0 V c).share 1 = fullShare.right from rfl,
      show (dat0 V c).share 2 = fullShare from rfl, show (dat0 V c).share 3 = fullShare from rfl]
    dsimp only
    rw [e0, e1, e2, ← hout]
    exact sep_assoc'.trans (sep_mono (pointsTo_share (PosShare.mem_left_op_right fullShare)).2 .rfl)
  · unfold Pipeline.unscopedRest
    refine bigSep_congr fun b hb => ?_
    rw [hrest b fun e => (Finset.mem_sdiff.mp hb).2 (by rw [e]; exact Finset.mem_image.mpr ⟨3, Finset.mem_univ _, rfl⟩)]

theorem image1 : (Finset.univ.image (Pipeline.arrRef spec1) : Finset (Ref sig .tc)) = {main_arg1, main_v5, main_v7} := by decide

/-- At the call's entry: the input's full share splits into its two halves, one for each of the two windows that read it;
    the column of squared norms and the output are held whole; every other unscoped buffer stays aside. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [show Finset.image (Pipeline.arrRef (cfgs 1).spec) Finset.univ = ({main_arg1, main_v5, main_v7} : Finset (Ref sig .tc)) from image1, bigSep_W1]
  rw [bigSep_three main_arg1 main_v5 main_v7 (by decide) (by decide)]
  rw [(arr_whole1 0).set_eq_univ, (arr_whole1 2).set_eq_univ, (arr_whole1 3).set_eq_univ]
  rw [show (dat1 V c).share 0 = fullShare.left from rfl, show (dat1 V c).share 1 = fullShare.right from rfl,
    show (dat1 V c).share 2 = fullShare from rfl, show (dat1 V c).share 3 = fullShare from rfl]
  exact (sep_mono (pointsTo_share (PosShare.mem_left_op_right fullShare)).1 .rfl).trans sep_assoc

/-- At the call's exit: the two halves of the input's share join, the output's buffer holds what the write-backs left, and
    every other unscoped buffer is as the call found it. -/
theorem exit1 (c : Dev nD) (V' : (b : Ref sig .tc) → Buf (Elt F) ((c : Thread nD τ).loc b))
    (hout : V' main_v7 = (dat1 V c).arrAt 3 cfg1.N) (hrest : ∀ b, b ≠ main_v7 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have e0 : (dat1 V c).arrAt 0 cfg1.N = V' main_arg1 :=
    ((dat1 V c).arrAt_in 0 rfl _).trans ((A_eq1 V c 0).trans (hrest main_arg1 (by decide)).symm)
  have e1 : (dat1 V c).arrAt 1 cfg1.N = V' main_arg1 :=
    ((dat1 V c).arrAt_in 1 rfl _).trans ((A_eq1 V c 1).trans (hrest main_arg1 (by decide)).symm)
  have e2 : (dat1 V c).arrAt 2 cfg1.N = V' main_v5 :=
    ((dat1 V c).arrAt_in 2 rfl _).trans ((A_eq1 V c 2).trans (hrest main_v5 (by decide)).symm)
  rw [Pipeline.unscopedBufs_split₀ cfgs 1 winFacts₀1.arr_unscoped c V']
  refine sep_mono ?_ (Entails.of_eq ?_)
  · unfold Pipeline.arrBufs Dat.arrays
    rw [show Finset.image (Pipeline.arrRef (cfgs 1).spec) Finset.univ = ({main_arg1, main_v5, main_v7} : Finset (Ref sig .tc)) from image1, bigSep_W1]
    rw [bigSep_three main_arg1 main_v5 main_v7 (by decide) (by decide)]
    rw [(arr_whole1 0).set_eq_univ, (arr_whole1 2).set_eq_univ, (arr_whole1 3).set_eq_univ]
    rw [show (dat1 V c).share 0 = fullShare.left from rfl, show (dat1 V c).share 1 = fullShare.right from rfl,
      show (dat1 V c).share 2 = fullShare from rfl, show (dat1 V c).share 3 = fullShare from rfl]
    dsimp only
    rw [e0, e1, e2, ← hout]
    exact sep_assoc'.trans (sep_mono (pointsTo_share (PosShare.mem_left_op_right fullShare)).2 .rfl)
  · unfold Pipeline.unscopedRest
    refine bigSep_congr fun b hb => ?_
    rw [hrest b fun e => (Finset.mem_sdiff.mp hb).2 (by rw [e]; exact Finset.mem_image.mpr ⟨3, Finset.mem_univ _, rfl⟩)]

end Cert.KernelIdeal.Arrays

end
-- ==== Proof.KernelIdealRun.lean ====
/-
  The whole program run: @main is four segments — the host operations that form the two columns of squared norms, the
  first kernel call, the second kernel call, and the host operations that centre the two matrices and sum their product.

  The buffer contents at each boundary are a fold from the launch memory: the host operations' results after a host
  stretch, and after a kernel call the call's output array at what its write-backs leave, everything else unchanged.
  Every weakly fair execution terminates, nothing faults, and the final memory holds every unscoped buffer at the last
  boundary's contents — in particular both arguments as launched, and the result as the host tail computes it.
-/
import proofs.«154306_j26061861552238_1_alg».proof.Proof.KernelIdealArrays
import proofs.«154306_j26061861552238_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Arrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first call: its output array at what the write-backs leave, every other buffer as entered. -/
def W2 (c : Dev nD) : Valuation τ sig (Elt F) :=
  Function.update (W1 m c) (Proc.devRef .tc main_v6) ((dat0 (U1 m) c).arrAt 3 cfg0.N)
abbrev U2 : (c : Dev nD) → (b : Ref sig .tc) → Buf (Elt F) ((c : Thread nD τ).loc b) := fun c b => W2 m c b
theorem W2_out (c : Dev nD) : U2 m c main_v6 = (dat0 (U1 m) c).arrAt 3 cfg0.N := by
  unfold U2 W2; exact Function.update_self ..
theorem W2_rest (c : Dev nD) : ∀ b : Ref sig .tc, b ≠ main_v6 → U2 m c b = U1 m c b := fun b hb => by
  unfold U2 W2; exact Function.update_of_ne (StableHlo.devRef_ne_of_ne hb) ..
/-- After the second call, likewise. -/
def W3 (c : Dev nD) : Valuation τ sig (Elt F) :=
  Function.update (W2 m c) (Proc.devRef .tc main_v7) ((dat1 (U2 m) c).arrAt 3 cfg1.N)
abbrev U3 : (c : Dev nD) → (b : Ref sig .tc) → Buf (Elt F) ((c : Thread nD τ).loc b) := fun c b => W3 m c b
theorem W3_out (c : Dev nD) : U3 m c main_v7 = (dat1 (U2 m) c).arrAt 3 cfg1.N := by
  unfold U3 W3; exact Function.update_self ..
theorem W3_rest (c : Dev nD) : ∀ b : Ref sig .tc, b ≠ main_v7 → U3 m c b = U2 m c b := fun b hb => by
  unfold U3 W3; exact Function.update_of_ne (StableHlo.devRef_ne_of_ne hb) ..
/-- After the last host stretch: the contents the final memory is read against. -/
abbrev W4 : Dev nD → Valuation τ sig (Elt F) := fun c => StableHlo.after hostOps2 (W3 m c)

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The kernel calls as segments -/

-- a library lemma stated over the pinned configuration unifies with the printed one only when unification may unfold
-- plain definitions in a metavariable's type
set_option backward.isDefEq.respectTransparency.types false in
/-- The first kernel call over the thread state: entered with every unscoped buffer at `W1`, left with them at
    `W2`. Its arrays are split out of the unscoped buffers at entry and put back at exit; the generator register
    passes through the invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (U1 m) c (U2 m c) (W2_out m c) (W2_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second kernel call over the thread state: entered with every unscoped buffer at `W2`, left with them at
    `W3`. Its arrays are split out of the unscoped buffers at entry and put back at exit; the generator register
    passes through the invariant; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (U2 m) c (U3 m c) (W3_out m c) (W3_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_arg (c : Dev nD) (b : Ref sig .tc) (h1 : b ∉ hostOps2_W) (h2 : b ≠ main_v7) (h3 : b ≠ main_v6) (h4 : b ∉ hostOps0_W) :
    W4 m c (Proc.devRef .tc b) = m ((c : Thread nD τ).loc b) :=
  (StableHlo.after_of_writes_sub hostOps2 _ hostOps2_writes h1).trans <|
    (W3_rest m c b h2).trans <| (W2_rest m c b h3).trans <| (StableHlo.after_of_writes_sub hostOps0 _ hostOps0_writes h4).trans rfl

end Cert.KernelIdeal.Run

end
-- ==== Proof.KPayload.lean ====
/-
  The value one grid step of the matrix kernel stores, read at a row p and a column q of its 512 × 512 block:
  with a the block of 512 rows of x that the step pairs with the block b of 512 rows of x, and c the column of the
  squared norms of a's rows,
      out[p,q] = exp ( Σ_k a[p,k] · b[q,k]  −  c[p] ).
  Narrowing to sixteen bits is the identity on extended reals, the block product contracts the second axis of both
  operands into a zero accumulator, and the column c is repeated along the columns.
-/
import proofs.«154306_j26061861552238_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPayload

open Idealize.ShloMosaic Idealize.SL.Sem Cert.KernelIdeal

/-- A column repeated along the columns, read at row p and column q, is the column's row p. -/
theorem colBroadcast_apply (v : FVec Ideal S512x1 .f32) (h : S512x1.Broadcasts S512x512) (p q : Fin 512) :
    broadcastTo S512x512 v h (ValueIdx.ix2 p q) = v (ValueIdx.ix2 p 0) :=
  broadcastTo_apply v h (ValueIdx.ix2 p q) (ValueIdx.ix2 p 0) (fun a => match a with
    | ⟨0, _⟩ => rfl
    | ⟨1, _⟩ => rfl)

/-- The left operand's row is the output's row. -/
theorem lhs_axis0 (i : S512x512.Idx) (t : dot_S512x1024_S512x1024_S512x512_1_1_0_0_n_n.contr.Idx) :
    (dot_S512x1024_S512x1024_S512x512_1_1_0_0_n_n.lhsIdx i t 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's column is the contraction position. -/
theorem lhs_axis1 (i : S512x512.Idx) (t : dot_S512x1024_S512x1024_S512x512_1_1_0_0_n_n.contr.Idx) :
    (dot_S512x1024_S512x1024_S512x512_1_1_0_0_n_n.lhsIdx i t 1).val = (t ⟨0, by decide⟩).val :=
  dot_S512x1024_S512x1024_S512x512_1_1_0_0_n_n.lhsIdx_val_of_single rfl i t
/-- The right operand's row is the output's column. -/
theorem rhs_axis0 (i : S512x512.Idx) (t : dot_S512x1024_S512x1024_S512x512_1_1_0_0_n_n.contr.Idx) :
    (dot_S512x1024_S512x1024_S512x512_1_1_0_0_n_n.rhsIdx i t 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's column is the contraction position. -/
theorem rhs_axis1 (i : S512x512.Idx) (t : dot_S512x1024_S512x1024_S512x512_1_1_0_0_n_n.contr.Idx) :
    (dot_S512x1024_S512x1024_S512x512_1_1_0_0_n_n.rhsIdx i t 1).val = (t ⟨0, by decide⟩).val :=
  dot_S512x1024_S512x1024_S512x512_1_1_0_0_n_n.rhsIdx_val_of_single rfl i t

/-- The block product into the zero accumulator at row p, column q: the inner product of row p of the left block
    with row q of the right block. -/
theorem blockProduct_apply (a b : FVec Ideal S512x1024 .bf16) (p q : Fin 512) :
    FloatOps.matmul dot_S512x1024_S512x1024_S512x512_1_1_0_0_n_n none a b (constant S512x512 .f32 0x00000000#32) (ValueIdx.ix2 p q)
      = ∑ k : Fin 1024, a (ValueIdx.ix2 p k) * b (ValueIdx.ix2 q k) := by
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ValueIdx.ix2 p q) ((ValueIdx.contrEquiv1 dot_S512x1024_S512x1024_S512x512_1_1_0_0_n_n 1024 rfl rfl).symm k) = ValueIdx.ix2 p k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ValueIdx.ix2 p q) ((ValueIdx.contrEquiv1 dot_S512x1024_S512x1024_S512x512_1_1_0_0_n_n 1024 rfl rfl).symm k) = ValueIdx.ix2 q k := funext fun a => Fin.ext (by
    match a with
    | ⟨0, _⟩ => exact rhs_axis0 _ _
    | ⟨1, _⟩ => exact (rhs_axis1 _ _).trans hk)
  rw [el, er]

/-- What the first matrix's grid step stores at row p, column q. -/
theorem pay0_apply (v0 v2 : Vec Ideal S512x1024 .f32) (v5 : Vec Ideal S512x1 .f32) (p q : Fin 512) :
    Cert.KernelIdeal.Gen.k0_pay1 (F := Ideal) v0 v2 v5 (ValueIdx.ix2 p q)
      = Ideal.exp ((∑ k : Fin 1024, v0 (ValueIdx.ix2 p k) * v2 (ValueIdx.ix2 q k)) - v5 (ValueIdx.ix2 p 0)) := by
  unfold Gen.k0_pay1
  refine congrArg Ideal.exp ?_
  refine congrArg₂ (· - ·) ?_ ?_
  · exact blockProduct_apply v0 v2 p q
  · refine (colBroadcast_apply _ _ p q).trans ?_
    rw [shapeCast_self]

/-- What the second matrix's grid step stores at row p, column q: the same expression of its own blocks. -/
theorem pay1_apply (v0 v2 : Vec Ideal S512x1024 .f32) (v5 : Vec Ideal S512x1 .f32) (p q : Fin 512) :
    Cert.KernelIdeal.Gen.k1_pay1 (F := Ideal) v0 v2 v5 (ValueIdx.ix2 p q)
      = Ideal.exp ((∑ k : Fin 1024, v0 (ValueIdx.ix2 p k) * v2 (ValueIdx.ix2 q k)) - v5 (ValueIdx.ix2 p 0)) := by
  unfold Gen.k1_pay1
  refine congrArg Ideal.exp ?_
  refine congrArg₂ (· - ·) ?_ ?_
  · exact blockProduct_apply v0 v2 p q
  · refine (colBroadcast_apply _ _ p q).trans ?_
    rw [shapeCast_self]

end Cert.KernelIdeal.KPayload

end
-- ==== Proof.KBlocks.lean ====
/-
  What each of the two kernel calls leaves in its output array.

  A call runs over an 8×8 grid; point (i, j) writes block (i, j), of 512×512, of a 4096×4096 array, computed from rows
  block i of the input x, rows block j of the same input, and rows block i of a column s. The value stored at row p and
  column q of the block is exp (Σ_k a[p,k] · b[q,k] − c[p]) of the three blocks a, b, c, so at row r and column u of the
  array it is exp (Σ_k x[r,k] · x[u,k] − s[r]); and the 64 blocks tile the array, so after the last point the whole array
  is that function of x and s.
-/
import proofs.«154306_j26061861552238_1_alg».proof.Proof.KernelIdealBody
import proofs.«154306_j26061861552238_1_alg».proof.Proof.KPayload
import Idealize.ShloMosaic.Lib.Pipeline.Value
import Idealize.ShloMosaic.Lib.ValueIdx

noncomputable section

namespace Cert.KernelIdeal.Blocks

open Cert.KernelIdeal Cert.KernelIdeal.Gen Cert.KernelIdeal.Facts₀ Cert.KernelIdeal.Body
open Idealize.ShloMosaic Idealize.ShloMosaic.TcCoe Idealize.SL.Sem
open Idealize.ShloMosaic.Pipeline (Dat)

/-- The array a call leaves: at row r and column u, exp of the inner product of rows r and u of x, less entry r of the column s. -/
def Kmat2 (x : FVec Ideal S4096x1024 .f32) (s : FVec Ideal S4096x1 .f32) : FVec Ideal S4096x4096 .f32 := fun i =>
  Ideal.exp ((∑ k : Fin 1024, x (ValueIdx.ix2 (i 0) k) * x (ValueIdx.ix2 (i 1) k)) - s (ValueIdx.ix2 (i 0) 0))

variable (V : (c : Dev nD) → (b : Ref sig .tc) → Buf (Elt Ideal) ((c : Thread nD τ).loc b))

/-- The zero offsets of a whole-buffer rectangle. -/
theorem zeros2 : (![0, 0] : Fin 2 → Nat) = fun _ => 0 := funext fun a => by fin_cases a <;> rfl

/-! # Call 0 -/

/-- The block index maps over the grid: the two row-block windows of x follow the output's row and column block, the column's
    window follows the output's row block, and none of the three moves along its second axis. -/
theorem blockIdx0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (0 : Fin 2) ∧ win0_2.index t (1 : Fin 2) = 0 :=
  (by decide +kernel : ∀ t : Fin grid0.N, _)

/-- Every one of the 8×8 output blocks is some point's. -/
theorem blockOnto0 : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- Row p, column k of the first window's block at point t is row (block index × 512 + p), column k of x. -/
theorem iblk0_0_apply (c : Dev nD) (t : Fin cfg0.N) (p : Fin 512) (k : Fin 1024) (r : Fin 4096)
    (hr : r.val = win0_0.index t (0 : Fin 2) * 512 + p.val) (h1 : win0_0.index t (1 : Fin 2) = 0) :
    (iblk0 (F := Ideal) V c 0 t : Vec Ideal S512x1024 .f32) (ValueIdx.ix2 p k)
      = (V c main_arg0 : S4096x1024.Idx → Elt Ideal .f32) (ValueIdx.ix2 r k) := by
  unfold iblk0
  rw [View.read_apply]
  show V c main_arg0 _ = V c main_arg0 _
  congr 1
  funext d
  apply Fin.ext
  match d with
  | ⟨0, _⟩ => show win0_0.index t (0 : Fin 2) * 512 + 1 * p.val = r.val; omega
  | ⟨1, _⟩ => show win0_0.index t (1 : Fin 2) * 1024 + 1 * k.val = k.val; omega

/-- The same for the second window's block. -/
theorem iblk0_1_apply (c : Dev nD) (t : Fin cfg0.N) (p : Fin 512) (k : Fin 1024) (r : Fin 4096)
    (hr : r.val = win0_1.index t (0 : Fin 2) * 512 + p.val) (h1 : win0_1.index t (1 : Fin 2) = 0) :
    (iblk0 (F := Ideal) V c 1 t : Vec Ideal S512x1024 .f32) (ValueIdx.ix2 p k)
      = (V c main_arg0 : S4096x1024.Idx → Elt Ideal .f32) (ValueIdx.ix2 r k) := by
  unfold iblk0
  rw [View.read_apply]
  show V c main_arg0 _ = V c main_arg0 _
  congr 1
  funext d
  apply Fin.ext
  match d with
  | ⟨0, _⟩ => show win0_1.index t (0 : Fin 2) * 512 + 1 * p.val = r.val; omega
  | ⟨1, _⟩ => show win0_1.index t (1 : Fin 2) * 1024 + 1 * k.val = k.val; omega

/-- Row p of the column's block at point t is row (block index × 512 + p) of the column. -/
theorem iblk0_2_apply (c : Dev nD) (t : Fin cfg0.N) (p : Fin 512) (r : Fin 4096)
    (hr : r.val = win0_2.index t (0 : Fin 2) * 512 + p.val) (h1 : win0_2.index t (1 : Fin 2) = 0) :
    (iblk0 (F := Ideal) V c 2 t : Vec Ideal S512x1 .f32) (ValueIdx.ix2 p 0)
      = (V c main_v2 : S4096x1.Idx → Elt Ideal .f32) (ValueIdx.ix2 r 0) := by
  unfold iblk0
  rw [View.read_apply]
  show V c main_v2 _ = V c main_v2 _
  congr 1
  funext d
  apply Fin.ext
  match d with
  | ⟨0, _⟩ => show win0_2.index t (0 : Fin 2) * 512 + 1 * p.val = r.val; omega
  | ⟨1, _⟩ => show win0_2.index t (1 : Fin 2) * 1 + 1 * 0 = 0; omega

/-- What point t writes back is block t of `Kmat2` of x and s as the call finds them. -/
theorem flushed0_eq (c : Dev nD) (t : Fin cfg0.N) :
    (dat0 (F := Ideal) V c).flushed 3 t
      = ((cfg0.win 3).blk t).view.read (Elt Ideal) (Kmat2 (V c main_arg0) (V c main_v2)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S512x1) zeros2]
  obtain ⟨e0, e1, e2, e3, e4, e5⟩ := blockIdx0 t
  funext y
  obtain ⟨p, q, rfl⟩ : ∃ (p : Fin 512) (q : Fin 512), y = ValueIdx.ix2 p q := ⟨y 0, y 1, ValueIdx.eq_ix2 y⟩
  show Gen.k0_pay1 (F := Ideal) (iblk0 V c 0 t) (iblk0 V c 1 t) (iblk0 V c 2 t) (ValueIdx.ix2 p q)
    = Kmat2 (V c main_arg0) (V c main_v2) (((cfg0.win 3).blk t).view.emb (ValueIdx.ix2 p q))
  rw [KPayload.pay0_apply]
  unfold Kmat2
  have h0 : ((((cfg0.win 3).blk t).view.emb (ValueIdx.ix2 p q)) 0).val = win0_3.index t (0 : Fin 2) * 512 + 1 * p.val := rfl
  have h1 : ((((cfg0.win 3).blk t).view.emb (ValueIdx.ix2 p q)) 1).val = win0_3.index t (1 : Fin 2) * 512 + 1 * q.val := rfl
  refine congrArg Ideal.exp ?_
  congr 1
  · refine Finset.sum_congr rfl fun k _ => ?_
    rw [iblk0_0_apply V c t p k ((((cfg0.win 3).blk t).view.emb (ValueIdx.ix2 p q)) 0) (h0.trans (by omega)) e1,
      iblk0_1_apply V c t q k ((((cfg0.win 3).blk t).view.emb (ValueIdx.ix2 p q)) 1) (h1.trans (by omega)) e3]
  · exact iblk0_2_apply V c t p ((((cfg0.win 3).blk t).view.emb (ValueIdx.ix2 p q)) 0) (h0.trans (by omega)) e5

/-- An index of the array is in point t's block iff each coordinate is in the block's range on its axis. -/
theorem mem_blk0 (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v6).slice (win0_3.rect t)).set ↔ _
  rw [View.set_slice_whole, Rect.mem_set_unit]
  exact Iff.rfl

/-- The blocks tile the array: row r, column u is in the block of the point whose block index is (r / 512, u / 512). -/
theorem cover0 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := blockOnto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the 64 points the output array is `Kmat2` of x and s as the call finds them. -/
theorem arr0_final (c : Dev nD) : (dat0 (F := Ideal) V c).arrAt 3 cfg0.N = Kmat2 (V c main_arg0) (V c main_v2) :=
  (dat0 (F := Ideal) V c).arrAt_eq_of_cover 3 _ (fun t _ => flushed0_eq V c t) (cover0)

/-! # Call 1 -/

/-- The block index maps over the grid: the two row-block windows of x follow the output's row and column block, the column's
    window follows the output's row block, and none of the three moves along its second axis. -/
theorem blockIdx1 : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (0 : Fin 2) ∧ win1_2.index t (1 : Fin 2) = 0 :=
  (by decide +kernel : ∀ t : Fin grid1.N, _)

/-- Every one of the 8×8 output blocks is some point's. -/
theorem blockOnto1 : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- Row p, column k of the first window's block at point t is row (block index × 512 + p), column k of x. -/
theorem iblk1_0_apply (c : Dev nD) (t : Fin cfg1.N) (p : Fin 512) (k : Fin 1024) (r : Fin 4096)
    (hr : r.val = win1_0.index t (0 : Fin 2) * 512 + p.val) (h1 : win1_0.index t (1 : Fin 2) = 0) :
    (iblk1 (F := Ideal) V c 0 t : Vec Ideal S512x1024 .f32) (ValueIdx.ix2 p k)
      = (V c main_arg1 : S4096x1024.Idx → Elt Ideal .f32) (ValueIdx.ix2 r k) := by
  unfold iblk1
  rw [View.read_apply]
  show V c main_arg1 _ = V c main_arg1 _
  congr 1
  funext d
  apply Fin.ext
  match d with
  | ⟨0, _⟩ => show win1_0.index t (0 : Fin 2) * 512 + 1 * p.val = r.val; omega
  | ⟨1, _⟩ => show win1_0.index t (1 : Fin 2) * 1024 + 1 * k.val = k.val; omega

/-- The same for the second window's block. -/
theorem iblk1_1_apply (c : Dev nD) (t : Fin cfg1.N) (p : Fin 512) (k : Fin 1024) (r : Fin 4096)
    (hr : r.val = win1_1.index t (0 : Fin 2) * 512 + p.val) (h1 : win1_1.index t (1 : Fin 2) = 0) :
    (iblk1 (F := Ideal) V c 1 t : Vec Ideal S512x1024 .f32) (ValueIdx.ix2 p k)
      = (V c main_arg1 : S4096x1024.Idx → Elt Ideal .f32) (ValueIdx.ix2 r k) := by
  unfold iblk1
  rw [View.read_apply]
  show V c main_arg1 _ = V c main_arg1 _
  congr 1
  funext d
  apply Fin.ext
  match d with
  | ⟨0, _⟩ => show win1_1.index t (0 : Fin 2) * 512 + 1 * p.val = r.val; omega
  | ⟨1, _⟩ => show win1_1.index t (1 : Fin 2) * 1024 + 1 * k.val = k.val; omega

/-- Row p of the column's block at point t is row (block index × 512 + p) of the column. -/
theorem iblk1_2_apply (c : Dev nD) (t : Fin cfg1.N) (p : Fin 512) (r : Fin 4096)
    (hr : r.val = win1_2.index t (0 : Fin 2) * 512 + p.val) (h1 : win1_2.index t (1 : Fin 2) = 0) :
    (iblk1 (F := Ideal) V c 2 t : Vec Ideal S512x1 .f32) (ValueIdx.ix2 p 0)
      = (V c main_v5 : S4096x1.Idx → Elt Ideal .f32) (ValueIdx.ix2 r 0) := by
  unfold iblk1
  rw [View.read_apply]
  show V c main_v5 _ = V c main_v5 _
  congr 1
  funext d
  apply Fin.ext
  match d with
  | ⟨0, _⟩ => show win1_2.index t (0 : Fin 2) * 512 + 1 * p.val = r.val; omega
  | ⟨1, _⟩ => show win1_2.index t (1 : Fin 2) * 1 + 1 * 0 = 0; omega

/-- What point t writes back is block t of `Kmat2` of x and s as the call finds them. -/
theorem flushed1_eq (c : Dev nD) (t : Fin cfg1.N) :
    (dat1 (F := Ideal) V c).flushed 3 t
      = ((cfg1.win 3).blk t).view.read (Elt Ideal) (Kmat2 (V c main_arg1) (V c main_v5)) := by
  show (cfg1.win 3).cut (grid1.coords t) ((dat1 V c).after 3 t) = _
  rw [after1_3]
  unfold out1_3
  rw [View.canon_unit_zero zeros2]
  simp only [View.ld_unit_zero (S := S512x1024) zeros2, View.ld_unit_zero (S := S512x1) zeros2]
  obtain ⟨e0, e1, e2, e3, e4, e5⟩ := blockIdx1 t
  funext y
  obtain ⟨p, q, rfl⟩ : ∃ (p : Fin 512) (q : Fin 512), y = ValueIdx.ix2 p q := ⟨y 0, y 1, ValueIdx.eq_ix2 y⟩
  show Gen.k1_pay1 (F := Ideal) (iblk1 V c 0 t) (iblk1 V c 1 t) (iblk1 V c 2 t) (ValueIdx.ix2 p q)
    = Kmat2 (V c main_arg1) (V c main_v5) (((cfg1.win 3).blk t).view.emb (ValueIdx.ix2 p q))
  rw [KPayload.pay1_apply]
  unfold Kmat2
  have h0 : ((((cfg1.win 3).blk t).view.emb (ValueIdx.ix2 p q)) 0).val = win1_3.index t (0 : Fin 2) * 512 + 1 * p.val := rfl
  have h1 : ((((cfg1.win 3).blk t).view.emb (ValueIdx.ix2 p q)) 1).val = win1_3.index t (1 : Fin 2) * 512 + 1 * q.val := rfl
  refine congrArg Ideal.exp ?_
  congr 1
  · refine Finset.sum_congr rfl fun k _ => ?_
    rw [iblk1_0_apply V c t p k ((((cfg1.win 3).blk t).view.emb (ValueIdx.ix2 p q)) 0) (h0.trans (by omega)) e1,
      iblk1_1_apply V c t q k ((((cfg1.win 3).blk t).view.emb (ValueIdx.ix2 p q)) 1) (h1.trans (by omega)) e3]
  · exact iblk1_2_apply V c t p ((((cfg1.win 3).blk t).view.emb (ValueIdx.ix2 p q)) 0) (h0.trans (by omega)) e5

/-- An index of the array is in point t's block iff each coordinate is in the block's range on its axis. -/
theorem mem_blk1 (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v7).slice (win1_3.rect t)).set ↔ _
  rw [View.set_slice_whole, Rect.mem_set_unit]
  exact Iff.rfl

/-- The blocks tile the array: row r, column u is in the block of the point whose block index is (r / 512, u / 512). -/
theorem cover1 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := blockOnto1 ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- After the 64 points the output array is `Kmat2` of x and s as the call finds them. -/
theorem arr1_final (c : Dev nD) : (dat1 (F := Ideal) V c).arrAt 3 cfg1.N = Kmat2 (V c main_arg1) (V c main_v5) :=
  (dat1 (F := Ideal) V c).arrAt_eq_of_cover 3 _ (fun t _ => flushed1_eq V c t) (cover1)

end Cert.KernelIdeal.Blocks

end
-- ==== Proof.KSq.lean ====
/-
  The column of squared row norms. Before the matrix kernel runs, the squared norm of each row of x is computed as
  the sum along the row of the entrywise squares, and laid out as a column:
      sq[a] = Σ_k x[a,k] · x[a,k].
  The sum starts from the initial value 0, and 0 + s = s on the extended reals, so no finiteness is needed.
-/
import proofs.«154306_j26061861552238_1_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KSq

open Idealize.ShloMosaic Cert.KernelIdeal Cert.KernelIdeal.Facts₀

/-- The column of squared row norms as @main computes it on the host before the kernel call. -/
def sqH (x : FVec Ideal S4096x1024 .f32) : FVec Ideal S4096x1 .f32 :=
  broadcastInDim S4096x1 ![0] bcast_S4096_S4096x1_0
    (Host.reduceAdd (mulf x x) (constant (F := Ideal) S_ .f32 0x00000000#32) reducesTo_S4096x1024_S4096_d1 h_S_)

/-- The sum along each row from the initial value 0, read at row a: the sum of the row's entries. -/
theorem rowSum_apply (y : FVec Ideal S4096x1024 .f32) (a : Fin 4096) :
    Host.reduceAdd y (constant (F := Ideal) S_ .f32 0x00000000#32) reducesTo_S4096x1024_S4096_d1 h_S_ (ValueIdx.ix1 a)
      = ∑ k : Fin 1024, y (ValueIdx.ix2 a k) := by
  simp only [Host.reduceAdd, Ideal.hostReduceAdd_def]
  rw [Ideal.hostReduceAdd_single reducesTo_S4096x1024_S4096_d1 (by decide)]
  refine (congrArg₂ (· + ·) Ideal.ofBits_zero_f32 (Finset.sum_congr rfl fun k _ => ?_)).trans (zero_add _)
  exact congrArg y (funext fun b => Fin.ext (by match b with | ⟨0, _⟩ => rfl | ⟨1, _⟩ => rfl))

/-- Row a of the column of squared norms is the sum of the squares of row a of x. -/
theorem sqH_apply (x : FVec Ideal S4096x1024 .f32) (a : Fin 4096) :
    sqH x (ValueIdx.ix2 a 0) = ∑ k : Fin 1024, x (ValueIdx.ix2 a k) * x (ValueIdx.ix2 a k) := by
  unfold sqH
  refine (broadcastInDim_apply _ bcast_S4096_S4096x1_0 _ (ValueIdx.ix2 a 0) (ValueIdx.ix1 a) (fun b => match b with
    | ⟨0, _⟩ => by show a.val = if (4096 : Nat) = 1 then 0 else a.val; rw [if_neg (by decide)])).trans ?_
  exact rowSum_apply (mulf x x) a

end Cert.KernelIdeal.KSq

end
-- ==== Proof.KSpec.lean ====
/-
  The mathematics both programs compute, stated once.

  For an input matrix x (4096 rows of 1024 entries) the "self" RBF matrix is
      K[i,j] = exp (x_i · x_j − |x_i|²),
  the inner product of rows i and j minus the squared norm of row i (not the symmetric squared distance).
  A matrix is centred by subtracting its row means and its column means and adding its grand mean, and the
  result is  Σ_{i,j} center(Kx)[i,j] · center(Ky)[j,i]  divided by 4095².  The centring and the final sum are the
  same host operations in both programs, so they are carried here as one function `tail` that is never opened.
-/
import proofs.«154306_j26061861552238_1_alg».proof.Proof.Gen.KernelIdeal
import Idealize.ShloMosaic.PureOps.Ideal
import Idealize.ShloMosaic.Lib.ValueIdx

noncomputable section

namespace Cert.KernelIdeal.KSpec

open Idealize.ShloMosaic Cert.KernelIdeal Cert.KernelIdeal.Facts₀

/-- Row i, column j of the RBF matrix of x: exp (x_i · x_j − |x_i|²). -/
def Kmat (x : FVec Ideal S4096x1024 .f32) : FVec Ideal S4096x4096 .f32 := fun i =>
  Ideal.exp ((∑ k : Fin 1024, x (ValueIdx.ix2 (i 0) k) * x (ValueIdx.ix2 (i 1) k))
    - ∑ k : Fin 1024, x (ValueIdx.ix2 (i 0) k) * x (ValueIdx.ix2 (i 0) k))

/-- The mean of each row, as a column. -/
def rowMean (K : FVec Ideal S4096x4096 .f32) : FVec Ideal S4096x1 .f32 :=
  Host.divf (broadcastInDim S4096x1 ![0] bcast_S4096_S4096x1_0
      (Host.reduceAdd K (constant (F := Ideal) S_ .f32 0x00000000#32) reducesTo_S4096x4096_S4096_d1 h_S_))
    (broadcastInDim S4096x1 ![] bcast_S_S4096x1 (constant (F := Ideal) S_ .f32 0x45800000#32))

/-- The mean of each column, as a row. -/
def colMean (K : FVec Ideal S4096x4096 .f32) : FVec Ideal S1x4096 .f32 :=
  Host.divf (broadcastInDim S1x4096 ![1] bcast_S4096_S1x4096_1
      (Host.reduceAdd K (constant (F := Ideal) S_ .f32 0x00000000#32) reducesTo_S4096x4096_S4096_d0 h_S_))
    (broadcastInDim S1x4096 ![] bcast_S_S1x4096 (constant (F := Ideal) S_ .f32 0x45800000#32))

/-- The mean of all entries. -/
def grandMean (K : FVec Ideal S4096x4096 .f32) : FVec Ideal S_ .f32 :=
  Host.divf (Host.reduceAdd K (constant (F := Ideal) S_ .f32 0x00000000#32) reducesTo_S4096x4096_S_d0_1 h_S_)
    (constant (F := Ideal) S_ .f32 0x4B800000#32)

/-- K − row means − column means + grand mean. -/
def center (K : FVec Ideal S4096x4096 .f32) : FVec Ideal S4096x4096 .f32 :=
  addf (subf (subf K (broadcastInDim S4096x4096 ![0, 1] bcast_S4096x1_S4096x4096_0_1 (rowMean K)))
      (broadcastInDim S4096x4096 ![0, 1] bcast_S1x4096_S4096x4096_0_1 (colMean K)))
    (broadcastInDim S4096x4096 ![] bcast_S_S4096x4096 (grandMean K))

/-- Σ_{i,j} center(Kx)[i,j] · center(Ky)[j,i], divided by 4095². -/
def tail (Kx Ky : FVec Ideal S4096x4096 .f32) : FVec Ideal S_ .f32 :=
  Host.divf (Host.reduceAdd (mulf (center Kx) (transpose S4096x4096 [1, 0] (center Ky) transposes_S4096x4096_S4096x4096_1_0))
      (constant (F := Ideal) S_ .f32 0x00000000#32) reducesTo_S4096x4096_S_d0_1 h_S_)
    (constant (F := Ideal) S_ .f32 0x4B7FE001#32)

end Cert.KernelIdeal.KSpec

end
-- ==== Proof.KernelIdealValue.lean ====
/-
  What the kernel's program returns, at the ideal instance.

  The first host stretch forms, for each input, the column of squared row norms. Each kernel call then fills its output
  array with exp (x_i · x_j − |x_i|²): block by block from the grid's points, the blocks tiling the array. The last host
  stretch centres the two matrices and sums their product. So the result buffer ends at `tail (Kmat x) (Kmat y)` of the two
  launch arrays.
-/
import proofs.«154306_j26061861552238_1_alg».proof.Proof.KernelIdealRun
import proofs.«154306_j26061861552238_1_alg».proof.Proof.KBlocks
import proofs.«154306_j26061861552238_1_alg».proof.Proof.KSq
import proofs.«154306_j26061861552238_1_alg».proof.Proof.KSpec
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Body Cert.KernelIdeal.Run
open Cert.KernelIdeal.Blocks Cert.KernelIdeal.KSq Cert.KernelIdeal.KSpec

variable (m : (ℓ : Loc nD τ sig) → Buf (Elt Ideal) ℓ)

/-- With the column of squared norms as the host forms it, the block form of the matrix is the specification's. -/
theorem Kmat2_sqH (x : FVec Ideal S4096x1024 .f32) : Kmat2 x (sqH x) = Kmat x := by
  funext i
  unfold Kmat2 Kmat
  exact congrArg (fun s => Ideal.exp ((∑ k : Fin 1024, x (ValueIdx.ix2 (i 0) k) * x (ValueIdx.ix2 (i 1) k)) - s))
    (sqH_apply x (i 0))

/-! ## The first call's entry contents -/

theorem U1_arg0 (c : Dev nD) : U1 m c main_arg0 = m ((c : Thread nD τ).loc main_arg0) :=
  StableHlo.after_of_writes_sub hostOps0 _ hostOps0_writes (by decide)
theorem U1_arg1 (c : Dev nD) : U1 m c main_arg1 = m ((c : Thread nD τ).loc main_arg1) :=
  StableHlo.after_of_writes_sub hostOps0 _ hostOps0_writes (by decide)
theorem U1_v2 (c : Dev nD) : U1 m c main_v2 = sqH (m ((c : Thread nD τ).loc main_arg0)) := by
  show StableHlo.after hostOps0 (W0 m c) (Proc.devRef .tc main_v2) = _
  after_results
  rfl
theorem U1_v5 (c : Dev nD) : U1 m c main_v5 = sqH (m ((c : Thread nD τ).loc main_arg1)) := by
  show StableHlo.after hostOps0 (W0 m c) (Proc.devRef .tc main_v5) = _
  after_results
  rfl

/-! ## The two matrices -/

theorem W3_v6 (c : Dev nD) : U3 m c main_v6 = Kmat (m ((c : Thread nD τ).loc main_arg0)) := by
  rw [W3_rest m c main_v6 (by decide), W2_out, arr0_final, U1_arg0, U1_v2, Kmat2_sqH]

theorem W3_v7 (c : Dev nD) : U3 m c main_v7 = Kmat (m ((c : Thread nD τ).loc main_arg1)) := by
  rw [W3_out, arr1_final, W2_rest m c main_arg1 (by decide), W2_rest m c main_v5 (by decide), U1_arg1, U1_v5, Kmat2_sqH]

/-! ## The result -/

set_option maxRecDepth 8192 in
set_option maxHeartbeats 8000000 in
theorem result (c : Dev nD) :
    W4 m c (Proc.devRef .tc main_v43)
      = tail (Kmat (m ((c : Thread nD τ).loc main_arg0))) (Kmat (m ((c : Thread nD τ).loc main_arg1))) := by
  have h : W4 m c (Proc.devRef .tc main_v43) = tail (U3 m c main_v6) (U3 m c main_v7) := by
    show StableHlo.after hostOps2 (W3 m c) (Proc.devRef .tc main_v43) = _
    after_results
    rfl
  rw [h, W3_v6, W3_v7]

end Cert.KernelIdeal.Result

end
-- ==== Proof.RefValue.lean ====
import proofs.«154306_j26061861552238_1_alg».proof.Defs
import proofs.«154306_j26061861552238_1_alg».proof.Proof.Gen.ReferenceIdeal.Run
import proofs.«154306_j26061861552238_1_alg».proof.Proof.Gen.ReferenceIdeal.Read
import proofs.«154306_j26061861552238_1_alg».proof.Proof.KSpec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.KernelIdeal (KSpec.Kmat KSpec.tail)

/-- A finite sum of real numbers, read in the extended reals, is the sum of the numbers read there. -/
theorem coe_sum {ι : Type} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The word 0x40000000 is the number two. -/
theorem two_eq : Ideal.ofBits .f32 0x40000000#32 = ((2 : ℝ) : EReal) := by
  simp [Ideal.ofBits, Ideal.ieee]
  exact_mod_cast (by norm_num : (8388608 : ℝ) * (2 ^ 22)⁻¹ = 2)

/-- For real s and d:  −((s + s) − 2·d) / 2 = d − s, so the two exponents agree. -/
theorem scalar_law (s d : ℝ) :
    Ideal.exp (Ideal.div (-(((Ideal.ofBits .f32 0x00000000#32 + (s : EReal)) + (Ideal.ofBits .f32 0x00000000#32 + (s : EReal)))
        - Ideal.ofBits .f32 0x40000000#32 * (d : EReal))) (Ideal.ofBits .f32 0x40000000#32))
      = Ideal.exp ((d : EReal) - (s : EReal)) := by
  rw [Ideal.ofBits_zero_f32, two_eq, zero_add, ← EReal.coe_add, ← EReal.coe_mul, ← EReal.coe_sub, ← EReal.coe_neg,
    Ideal.div_coe (two_ne_zero), ← EReal.coe_mul, ← EReal.coe_sub]
  congr 2
  ring

/-- The first self-RBF stage chain of the reference is the matrix exp (x_i · x_j − |x_i|²), when x is real. -/
theorem kref_eq (x : FVec Ideal S4096x1024 .f32) (hx : ∀ i, ∃ r : ℝ, x i = (r : EReal)) :
    Read.val_main_v13 (F := Ideal) x = KSpec.Kmat x := by
  funext i
  obtain ⟨a, b, rfl⟩ : ∃ (a b : Fin 4096), i = ValueIdx.ix2 a b := ⟨i 0, i 1, ValueIdx.eq_ix2 i⟩
  choose f hf using hx
  have e1 : ∀ k : Fin 1024, Read.idx_main_v1 (Read.idx_main_v2 (Read.idx_main_v8 (ValueIdx.ix2 a b))) k = ValueIdx.ix2 a k := fun k =>
    funext fun d => Fin.ext (by match d with | ⟨0, _⟩ => rfl | ⟨1, _⟩ => rfl)
  have e2 : ∀ k : Fin 1024, Read.lidx_main_v5 (ValueIdx.ix2 a b) k = ValueIdx.ix2 a k := fun k =>
    funext fun d => Fin.ext (by match d with | ⟨0, _⟩ => rfl | ⟨1, _⟩ => rfl)
  have e3 : ∀ k : Fin 1024, Read.idx_main_v4 (Read.ridx_main_v5 (ValueIdx.ix2 a b) k) = ValueIdx.ix2 b k := fun k =>
    funext fun d => Fin.ext (by match d with | ⟨0, _⟩ => rfl | ⟨1, _⟩ => rfl)
  rw [Read.val_main_v13_apply, Read.val_main_v12_apply, Read.val_main_v11_apply, Read.val_main_cst_1_apply,
    Read.val_main_v10_apply, Read.val_main_v9_apply, Read.val_main_v8_apply, Read.val_main_v7_apply, Read.val_main_v6_apply,
    Read.val_main_cst_0_apply, Read.val_main_v5_apply, Read.val_main_v3_apply, Read.val_main_v2_apply, Read.val_main_v1_apply,
    Read.val_main_cst_apply]
  simp only [Read.val_main_v4_apply, Read.val_main_v0_apply, e1, e2, e3, Ideal.hostUnary_exp_def, Ideal.hostDivf_def,
    Ideal.hostNegf_def, Ideal.negf_def, Ideal.subf_def, Ideal.addf_def, Ideal.mulf_def, Ideal.ofBits_def, hf]
  have hs : ∀ (p q : Fin 4096), (∑ k : Fin 1024, ((f (ValueIdx.ix2 p k) : ℝ) : EReal) * ((f (ValueIdx.ix2 q k) : ℝ) : EReal))
      = ((∑ k : Fin 1024, f (ValueIdx.ix2 p k) * f (ValueIdx.ix2 q k) : ℝ) : EReal) := fun p q => by
    rw [← coe_sum]; exact Finset.sum_congr rfl fun k _ => (EReal.coe_mul _ _).symm
  show _ = Ideal.exp ((∑ k : Fin 1024, x (ValueIdx.ix2 a k) * x (ValueIdx.ix2 b k))
    - ∑ k : Fin 1024, x (ValueIdx.ix2 a k) * x (ValueIdx.ix2 a k))
  simp only [hf, hs]
  exact scalar_law _ _

/-- The centring and the final sum of the reference are the shared tail applied to its two self-RBF stages. -/
theorem tail_eq (x y : FVec Ideal S4096x1024 .f32) :
    Read.val_main_v63 (F := Ideal) x y
      = KSpec.tail (Read.val_main_v13 (F := Ideal) x) (Read.val_main_v43 (F := Ideal) y) := by
  rfl

/-- The second self-RBF stage chain is the first one, applied to the second argument. -/
theorem second_chain_eq (y : FVec Ideal S4096x1024 .f32) :
    Read.val_main_v43 (F := Ideal) y = Read.val_main_v13 (F := Ideal) y := rfl

/-- The reference's result: the shared tail of the two matrices exp (x_i · x_j − |x_i|²) and exp (y_i · y_j − |y_i|²),
    when every entry of x and of y is a real number. -/
theorem ref_result (m : (ℓ : Loc Cert.ReferenceIdeal.nD Cert.ReferenceIdeal.τ Cert.ReferenceIdeal.sig) → Buf (Elt Ideal) ℓ) (c : Dev Cert.ReferenceIdeal.nD)
    (hx : ∀ i, ∃ r : ℝ, m ((c.tc : Thread Cert.ReferenceIdeal.nD Cert.ReferenceIdeal.τ).loc Cert.ReferenceIdeal.main_arg0) i = (r : EReal))
    (hy : ∀ i, ∃ r : ℝ, m ((c.tc : Thread Cert.ReferenceIdeal.nD Cert.ReferenceIdeal.τ).loc Cert.ReferenceIdeal.main_arg1) i = (r : EReal)) :
    Cert.ReferenceIdeal.Value.res_out0 (F := Ideal) m c
      = Cert.KernelIdeal.KSpec.tail
          (Cert.KernelIdeal.KSpec.Kmat (m ((c.tc : Thread Cert.ReferenceIdeal.nD Cert.ReferenceIdeal.τ).loc Cert.ReferenceIdeal.main_arg0)))
          (Cert.KernelIdeal.KSpec.Kmat (m ((c.tc : Thread Cert.ReferenceIdeal.nD Cert.ReferenceIdeal.τ).loc Cert.ReferenceIdeal.main_arg1))) := by
  have h0 := kref_eq (m ((c.tc : Thread nD τ).loc main_arg0)) hx
  have h1 := kref_eq (m ((c.tc : Thread nD τ).loc main_arg1)) hy
  exact (Read.val_main_v63_eq m c).trans ((tail_eq _ _).trans (by rw [second_chain_eq, h0, h1]))

end Cert.ReferenceIdeal.RefValue

end
-- ==== Proof.Finite.lean ====
/-
  From the precondition to finiteness. The precondition says that |x| < +∞ holds at every entry of x and of y (two
  conjunctions over all entries, joined by "and", equal to 1). At extended reals |v| < +∞ excludes +∞ and −∞, so
  every entry of both inputs is a real number.
-/
import proofs.«154306_j26061861552238_1_alg».proof.Defs
import proofs.«154306_j26061861552238_1_alg».proof.Proof.Gen.Pre_finite_inputs
import Idealize.ShloMosaic.Lib.ReduceAll

noncomputable section

namespace Cert.KernelIdeal.Finite

open Idealize.ShloMosaic Idealize.SL.Sem

/-- The scalar shape has one index. -/
instance : Subsingleton Cert.Pre_finite_inputs.S_.Idx := ⟨fun a b => funext fun d => d.elim0⟩

/-- An extended real whose absolute value is below +∞ (the word 0x7F800000 read as a float) is a real number. -/
theorem real_of_abs_lt_top (x : EReal)
    (hx : Ideal.cmp .olt (max x (-x)) (Ideal.ofBits .f32 0x7F800000#32) = 1#1) : ∃ r : ℝ, x = (r : EReal) := by
  have htop : (Ideal.ofBits .f32 0x7F800000#32 : EReal) = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- Under the precondition every entry of both inputs is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) (fun a => a.elim0)
  dsimp only [Cert.Pre_finite_inputs.fn] at h0
  obtain ⟨hx, hy⟩ := IntOp.andi_eq_one.1 h0
  refine ⟨fun i => ?_, fun i => ?_⟩
  · exact real_of_abs_lt_top _ (Host.reduce_andi_all _ _ _ _ _ hx i)
  · exact real_of_abs_lt_top _ (Host.reduce_andi_all _ _ _ _ _ hy i)

end Cert.KernelIdeal.Finite

end
-- ==== Proof.lean ====
/-
  The certificate: the Pallas kernel program that builds the two RBF "self" matrices K[i,j] = exp (x_i · x_j − |x_i|²) by a
  tiled matrix product, centres them and sums their product, against the jnp reference that forms the same matrices as
  exp (−((|x_i|² + |x_i|²) − 2 x_i · x_j) / 2).

  Frames. The kernel program is four segments (host operations, two kernel calls, host operations); each kernel call is a
  pipeline over an 8×8 grid whose body loads three blocks and stores one, and two of its windows read the same input
  array, each at half of the array's share. The run of the segments ends with every unscoped buffer at a known fold of the
  launch memory; no segment writes an argument. The reference is host operations only.

  Values, at the ideal instance. The bf16 truncations are the identity and the matrix product into a zero accumulator is
  the plain sum, so each call's output array is exp (Σ_k x_ik x_jk − Σ_k x_ik²). On finite inputs every sum is a real
  number and −((s + s) − 2d)/2 = d − s, so the reference's matrix is the same one; the centring and the final sum are the
  same operations on both sides.
-/
import proofs.«154306_j26061861552238_1_alg».proof.Defs
import proofs.«154306_j26061861552238_1_alg».proof.Proof.Gen.Kernel
import proofs.«154306_j26061861552238_1_alg».proof.Proof.Gen.KernelIdeal
import proofs.«154306_j26061861552238_1_alg».proof.Proof.Gen.ReferenceIdeal
import proofs.«154306_j26061861552238_1_alg».proof.Proof.Gen.Pre_finite_inputs
import proofs.«154306_j26061861552238_1_alg».proof.Proof.KernelRun
import proofs.«154306_j26061861552238_1_alg».proof.Proof.KernelIdealValue
import proofs.«154306_j26061861552238_1_alg».proof.Proof.RefValue
import proofs.«154306_j26061861552238_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to the end and leaves both arguments as launched: no segment writes them. -/
theorem frame_kernel : Cert.frame_Kernel := fun m ρ _ =>
  (θ_run Cert.Kernel.defs _ _).mono (fun r h c =>
    ⟨(h c _ (Cert.Kernel.Run.mem_uc Cert.Kernel.main_arg0 (by decide))).trans
        (Cert.Kernel.Run.W4_arg m c Cert.Kernel.main_arg0 (by decide) (by decide) (by decide) (by decide)),
      (h c _ (Cert.Kernel.Run.mem_uc Cert.Kernel.main_arg1 (by decide))).trans
        (Cert.Kernel.Run.W4_arg m c Cert.Kernel.main_arg1 (by decide) (by decide) (by decide) (by decide))⟩)
    (Cert.Kernel.Run.run (F := Bits) m ρ)

/-- The same for the idealized kernel program. -/
theorem frame_kernelIdeal : Cert.frame_KernelIdeal := fun m ρ _ =>
  (θ_run Cert.KernelIdeal.defs _ _).mono (fun r h c =>
    ⟨(h c _ (Cert.KernelIdeal.Run.mem_uc Cert.KernelIdeal.main_arg0 (by decide))).trans
        (Cert.KernelIdeal.Run.W4_arg m c Cert.KernelIdeal.main_arg0 (by decide) (by decide) (by decide) (by decide)),
      (h c _ (Cert.KernelIdeal.Run.mem_uc Cert.KernelIdeal.main_arg1 (by decide))).trans
        (Cert.KernelIdeal.Run.W4_arg m c Cert.KernelIdeal.main_arg1 (by decide) (by decide) (by decide) (by decide))⟩)
    (Cert.KernelIdeal.Run.run (F := Ideal) m ρ)

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the result at the centred-product sum of the two matrices
    exp (x_i · x_j − |x_i|²) and exp (y_i · y_j − |y_i|²). -/
theorem algebraic : Cert.algebraic_KernelIdeal_ReferenceIdeal := by
  intro m ρ m' ρ' hpre hagree
  refine ⟨fun c => Cert.KernelIdeal.KSpec.tail
      (Cert.KernelIdeal.KSpec.Kmat (m ((c.tc : Thread Cert.KernelIdeal.nD Cert.KernelIdeal.τ).loc Cert.KernelIdeal.main_arg0)))
      (Cert.KernelIdeal.KSpec.Kmat (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Run.run (F := Ideal) m ρ)
    · exact (h c _ (Cert.KernelIdeal.Run.mem_uc Cert.KernelIdeal.main_v43 (by decide))).trans (Cert.KernelIdeal.Result.result m c)
    · exact (h c _ (Cert.KernelIdeal.Run.mem_uc Cert.KernelIdeal.main_arg0 (by decide))).trans
        (Cert.KernelIdeal.Run.W4_arg m c Cert.KernelIdeal.main_arg0 (by decide) (by decide) (by decide) (by decide))
    · exact (h c _ (Cert.KernelIdeal.Run.mem_uc Cert.KernelIdeal.main_arg1 (by decide))).trans
        (Cert.KernelIdeal.Run.W4_arg m c Cert.KernelIdeal.main_arg1 (by decide) (by decide) (by decide) (by decide))
  · refine (θ_run Cert.ReferenceIdeal.defs _ _).mono (fun r h c => ⟨(h c).1.trans ?_, (h c).2⟩)
      (Cert.ReferenceIdeal.Value.run (F := Ideal) m' ρ')
    have hf := Cert.KernelIdeal.Finite.finite_of_pre m hpre c
    have e := Cert.ReferenceIdeal.RefValue.ref_result m' c
      (by rw [(hagree c).1]; exact hf.1) (by rw [(hagree c).2]; exact hf.2)
    rw [(hagree c).1, (hagree c).2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
